-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S16384x256 : Shape := ⟨2, ![16384, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S8192x256 .f32) (main_arg1 : FVec F S16384x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S8192x256 : Shape := ⟨2, ![8192, 256]⟩
abbrev S16384x256 : Shape := ⟨2, ![16384, 256]⟩
abbrev S256x16384 : Shape := ⟨2, ![256, 16384]⟩
abbrev S8192x16384 : Shape := ⟨2, ![8192, 16384]⟩
abbrev S2048x256 : Shape := ⟨2, ![2048, 256]⟩
abbrev S256x512 : Shape := ⟨2, ![256, 512]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S256x16384, .f32⟩
  | .hbm, ⟨3, _⟩ => ⟨S8192x16384, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S256x512, .f32⟩
  | .local _ .vmem, ⟨4, _⟩ => ⟨S2048x512, .f32⟩
  | .local _ .vmem, ⟨5, _⟩ => ⟨S2048x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S16384x256_S256x16384_1_0 : S16384x256.Transposes [1, 0] S256x16384
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S2048x256_S2048 : S2048x256.Reduces [1] S2048
  shapeCasts_S2048_S2048x1 : S2048.ShapeCasts S2048x1
  reduces_S256x512_S512 : S256x512.Reduces [0] S512
  shapeCasts_S512_S1x512 : S512.ShapeCasts S1x512
  bitsLt_bf16_f32 : FTy.bits .bf16 < FTy.bits .f32
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x16384.size a
  hwx0_1 : ∀ i : grid0.Coords, EltTy.bits .f32 = 32 ∨ (Rect.block (s := S256x16384) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x16384.size a
  hwx0_2 : ∀ i : grid0.Coords, EltTy.bits .f32 = 32 ∨ (Rect.block (s := S8192x16384) S2048x512.size (cc0_transform_2 i) (hinb0_2 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S8192x1 : Shape := ⟨2, ![8192, 1]⟩
abbrev S16384 : Shape := ⟨1, ![16384]⟩
abbrev S256x16384 : Shape := ⟨2, ![256, 16384]⟩
abbrev S8192x16384 : Shape := ⟨2, ![8192, 16384]⟩
abbrev S1x16384 : Shape := ⟨2, ![1, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S_, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S16384x256, .f32⟩
  | .hbm, ⟨10, _⟩ => ⟨S_, .f32⟩
  | .hbm, ⟨11, _⟩ => ⟨S16384, .f32⟩
  | .hbm, ⟨12, _⟩ => ⟨S256x16384, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | .hbm, ⟨17, _⟩ => ⟨S8192x16384, .f32⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x16384, .f32⟩
  | .hbm, ⟨22, _⟩ => ⟨S_, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S8192x16384, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S16384x256_S16384_d1 : S16384x256.ReducesTo [1] S16384
  transposes_S16384x256_S256x16384_1_0 : S16384x256.Transposes [1, 0] S256x16384
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  dot_S8192x256_S256x16384_S8192x16384_1_0_0_1_n_n_wf : DotDims.WF S8192x256 S256x16384 S8192x16384 [1] [0] [0] [1] [] []

variable [Facts₀]

def dot_S8192x256_S256x16384_S8192x16384_1_0_0_1_n_n : DotDims S8192x256 S256x16384 S8192x16384 where
  lhsContracting := [1]
  rhsContracting := [0]
  lhsNonContracting := [0]
  rhsNonContracting := [1]
  lhsBatch := []
  rhsBatch := []
  wf := dot_S8192x256_S256x16384_S8192x16384_1_0_0_1_n_n_wf

class Facts : Prop extends Facts₀ where

variable [Facts]
-- ==== Proof.NegDistSpec.lean ====
/-
  The function both programs compute, stated once over plain index types.

  For a feature row `x` and a prototype row `p` (each of 256 entries) put `y f = x f + ε`, with `ε` the
  single-precision word nearest to 1e-6 that both programs add to every feature entry. The squared distance is
  written in its expanded form, grouped exactly as both programs group it,

      (∑ f, y f · y f  +  ∑ f, p f · p f)  −  2 · ∑ f, y f · p f ,

  it is clamped below at zero, its square root is taken and the result is negated. No rearrangement of this
  expression is ever needed: the two programs differ only in how they tile the output and in a change of float
  format that is the identity on extended reals, so nothing here depends on the entries being finite.
-/
import Idealize.ShloMosaic.PureOps.Ideal
import Idealize.ShloMosaic.PureOps.Ideal.Laws
import Idealize.ShloMosaic.Lib.ValueIdx

noncomputable section

namespace Cert.NegDist

open Idealize.ShloMosaic Idealize.ShloMosaic.ValueIdx

/-- The offset added to every feature entry: the value of the word `0x358637BD`. -/
abbrev eps : EReal := Ideal.ofBits .f32 0x358637BD#32

/-- The factor in front of the cross term: the value of the word `0x40000000` (two). -/
abbrev two : EReal := Ideal.ofBits .f32 0x40000000#32

/-- Minus the distance between the shifted feature row `x + ε` and the prototype row `p`, through the expansion
    `‖y‖² + ‖p‖² − 2⟨y, p⟩` clamped at zero. -/
def rowPair (x p : Fin 256 → EReal) : EReal :=
  -(Ideal.sqrt (max ((∑ f : Fin 256, (x f + eps) * (x f + eps) + ∑ f : Fin 256, p f * p f)
      - two * ∑ f : Fin 256, (x f + eps) * p f) 0))

/-- The whole result: entry `(b, c)` pairs feature row `b` with prototype row `c`. -/
def negDist (feat : (⟨2, ![8192, 256]⟩ : Shape).Idx → EReal) (proto : (⟨2, ![16384, 256]⟩ : Shape).Idx → EReal) :
    (⟨2, ![8192, 16384]⟩ : Shape).Idx → EReal :=
  fun i => rowPair (fun f => feat (ix2 (i 0) f)) (fun f => proto (ix2 (i 1) f))

end Cert.NegDist

end
-- ==== Proof.RefNegDist.lean ====
/-
  The reference computes the specification.

  The reference program is a straight line of array operations: shift the features by `ε`, sum the squares of
  each shifted feature row and of each prototype row, contract the shifted features with the transposed prototypes,
  broadcast the two vectors of squared norms along the missing axis, combine, clamp at zero, take the square root and
  negate. Read at an output index `(b, c)` every one of these operations touches exactly the entries of feature row
  `b` and prototype row `c`; the four index equations below say so for the two row sums, for the contraction's left
  operand and for its right operand through the transpose. With them the reference's value at `(b, c)` is literally
  `rowPair` of those two rows: the two zero initial values of the sums disappear (`0 + s = s`) and nothing else moves.
-/
import proofs.«160110_j91087666413905_1_alg».proof.Proof.Gen.ReferenceIdeal.Read
import proofs.«160110_j91087666413905_1_alg».proof.Proof.NegDistSpec

noncomputable section

namespace Cert.ReferenceIdeal.RefValue

open Cert.ReferenceIdeal Cert.ReferenceIdeal.Gen Cert.ReferenceIdeal.Read
open Idealize.ShloMosaic Idealize.ShloMosaic.ValueIdx Cert.NegDist

/-- The sum of squares broadcast to `(b, c)` runs over feature row `b`. -/
theorem featRow_idx (i : S8192x16384.Idx) (k : Fin 256) :
    idx_main_v3 (idx_main_v4 (idx_main_v10 i)) k = ix2 (i 0) k :=
  funext fun a => Fin.ext (by match a with | ⟨0, _⟩ => rfl | ⟨1, _⟩ => rfl)

/-- The sum of squares broadcast to `(b, c)` runs over prototype row `c`. -/
theorem protoRow_idx (i : S8192x16384.Idx) (k : Fin 256) :
    idx_main_v6 (idx_main_v9 (idx_main_v11 i)) k = ix2 (i 1) k :=
  funext fun a => Fin.ext (by match a with | ⟨0, _⟩ => rfl | ⟨1, _⟩ => rfl)

/-- The contraction at `(b, c)` reads its left operand along feature row `b`. -/
theorem crossLeft_idx (i : S8192x16384.Idx) (k : Fin 256) : lidx_main_v8 i k = ix2 (i 0) k :=
  funext fun a => Fin.ext (by match a with | ⟨0, _⟩ => rfl | ⟨1, _⟩ => rfl)

/-- The contraction at `(b, c)` reads column `c` of the transposed prototypes, which is prototype row `c`. -/
theorem crossRight_idx (i : S8192x16384.Idx) (k : Fin 256) : idx_main_v7 (ridx_main_v8 i k) = ix2 (i 1) k :=
  funext fun a => Fin.ext (by match a with | ⟨0, _⟩ => rfl | ⟨1, _⟩ => rfl)

/-- The reference's last stage, as a function of the two argument arrays, is the specification. -/
theorem stage_eq_negDist (x0 : (⟨S8192x256, .f32⟩ : BufTy).Contents (Elt Ideal)) (x1 : (⟨S16384x256, .f32⟩ : BufTy).Contents (Elt Ideal)) :
    val_main_v19 (F := Ideal) x0 x1 = negDist x0 x1 := by
  funext i
  rw [val_main_v19_apply, val_main_v18_apply, val_main_v17_apply, val_main_v15_apply, val_main_v16_apply,
    val_main_cst_3_apply, val_main_v12_apply, val_main_v14_apply, val_main_v13_apply, val_main_cst_2_apply,
    val_main_v10_apply, val_main_v4_apply, val_main_v3_apply, val_main_v11_apply, val_main_v9_apply,
    val_main_v6_apply, val_main_v8_apply]
  simp only [val_main_v2_apply, val_main_v1_apply, val_main_v0_apply, val_main_cst_apply, val_main_v5_apply,
    val_main_v7_apply, val_main_cst_0_apply, val_main_cst_1_apply, featRow_idx, protoRow_idx, crossLeft_idx,
    crossRight_idx, Ideal.hostNegf_def, Ideal.negf_def, Ideal.hostUnary_sqrt_def, Ideal.maximumf_def, Ideal.subf_def,
    Ideal.addf_def, Ideal.mulf_def, Ideal.ofBits_def, Ideal.ofBits_zero_f32, zero_add]
  rfl

end Cert.ReferenceIdeal.RefValue

end
-- ==== Proof.LibKeepdims.lean ====
/-
  A vector of per-row values kept as a one-column matrix, and that column spread along the rows: the two layout
  steps of a sum taken along a row `with the reduced axis kept`. Read at an index given by its coordinates, each is
  the operand at the obvious index. (The row forms, `[a] → [1, a]` and `[1, b] → [a, b]`, are in the library; these
  are their mirror images.)
-/
import Idealize.ShloMosaic.Lib.ValueLayout

namespace Cert.LibKeepdims

open Idealize.ShloMosaic Idealize.ShloMosaic.ValueIdx

variable {α : Type}

/-- An `[a]` array cast to the column `[a, 1]` reads, at `(i, u)`, the operand at `i`, whatever the unit coordinate
    `u`: both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is `0` anyway when there is one row only) and the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.BlockNegDist.lean ====
/-
  What the kernel body computes for one block, read at an entry.

  The body loads a `2048 × 256` block `x0` of features and a `256 × 512` block `x1` of the transposed prototypes and
  stores one `2048 × 512` block. At entry `(p, q)` of that block it holds `rowPair` of row `p` of `x0` and column `q`
  of `x1`:
    • the sum of squares along a row of the shifted block, kept as a column and spread along the row, is the sum over
      that row (`rowSums_apply`); the sum of squares down a column of `x1`, kept as a row and spread down the column,
      is the sum over that column (`colSums_apply`);
    • the matrix product into a zero accumulator is the sum over the contracted index of the products
      (`cross_apply`); the narrowing of both operands to a shorter float format changes nothing on extended reals;
    • the final `0 − s` is `−s`.
-/
import proofs.«160110_j91087666413905_1_alg».proof.Proof.Gen.KernelIdeal.Skeleton
import proofs.«160110_j91087666413905_1_alg».proof.Proof.NegDistSpec
import proofs.«160110_j91087666413905_1_alg».proof.Proof.LibKeepdims
import Idealize.ShloMosaic.Lib.ValueLayout
import Idealize.ShloMosaic.PureOps.Ideal.Laws

noncomputable section

namespace Cert.KernelIdeal.BlockValue

open Cert.KernelIdeal Cert.KernelIdeal.Gen
open Idealize.ShloMosaic Idealize.ShloMosaic.ValueIdx Cert.NegDist Cert.LibKeepdims

/-- A sum along each row, kept as a column and spread along the row, read at `(p, q)`: the sum over row `p`. -/
theorem rowSums_apply (v : FVec Ideal S2048x256 .f32) (hr : S2048x256.Reduces [1] S2048) (hφ : FKind.Formats .f32)
    (hacc : (0x00000000#32 : BitVec 32) = FKind.add.neutral .f32 hφ)
    (hc : S2048.ShapeCasts S2048x1) (hb : S2048x1.Broadcasts S2048x512) (p : Fin 2048) (q : Fin 512) :
    broadcastTo S2048x512 (shapeCast S2048x1 (multiReduction .add [1] S2048 v 0x00000000#32 hr hφ hacc) hc) hb (ix2 p q)
      = ∑ f : Fin 256, v (ix2 p f) := by
  refine (broadcastTo_a1_ab_apply _ hb p q).trans ?_
  refine (shapeCast_a_a1_apply _ hc p 0).trans ?_
  refine (Ideal.multiReduction_add_single v 0x00000000#32 hr hφ hacc (ix1 p)).trans ?_
  exact Finset.sum_congr rfl fun f _ => congrArg v (funext fun a => Fin.ext (by
    match a with | ⟨0, _⟩ => rfl | ⟨1, _⟩ => rfl))

/-- A sum down each column, kept as a row and spread down the column, read at `(p, q)`: the sum over column `q`. -/
theorem colSums_apply (v : FVec Ideal S256x512 .f32) (hr : S256x512.Reduces [0] S512) (hφ : FKind.Formats .f32)
    (hacc : (0x00000000#32 : BitVec 32) = FKind.add.neutral .f32 hφ)
    (hc : S512.ShapeCasts S1x512) (hb : S1x512.Broadcasts S2048x512) (p : Fin 2048) (q : Fin 512) :
    broadcastTo S2048x512 (shapeCast S1x512 (multiReduction .add [0] S512 v 0x00000000#32 hr hφ hacc) hc) hb (ix2 p q)
      = ∑ f : Fin 256, v (ix2 f q) := by
  refine (broadcastTo_1b_ab_apply _ hb p q).trans ?_
  refine (shapeCast_a_1a_apply _ hc 0 q).trans ?_
  refine (Ideal.multiReduction_add_single v 0x00000000#32 hr hφ hacc (ix1 q)).trans ?_
  exact Finset.sum_congr rfl fun f _ => congrArg v (funext fun a => Fin.ext (by
    match a with | ⟨0, _⟩ => rfl | ⟨1, _⟩ => rfl))

/-! The product's operand indices at an output index and a contraction index, axis by axis. -/

theorem crossLeft_0 (i : S2048x512.Idx) (k : dot_S2048x256_S256x512_S2048x512_1_0_0_1_n_n.contr.Idx) :
    (dot_S2048x256_S256x512_S2048x512_1_0_0_1_n_n.lhsIdx i k 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem crossLeft_1 (i : S2048x512.Idx) (k : dot_S2048x256_S256x512_S2048x512_1_0_0_1_n_n.contr.Idx) :
    (dot_S2048x256_S256x512_S2048x512_1_0_0_1_n_n.lhsIdx i k 1).val = (k ⟨0, by decide⟩).val :=
  dot_S2048x256_S256x512_S2048x512_1_0_0_1_n_n.lhsIdx_val_of_single rfl i k
theorem crossRight_0 (i : S2048x512.Idx) (k : dot_S2048x256_S256x512_S2048x512_1_0_0_1_n_n.contr.Idx) :
    (dot_S2048x256_S256x512_S2048x512_1_0_0_1_n_n.rhsIdx i k 0).val = (k ⟨0, by decide⟩).val :=
  dot_S2048x256_S256x512_S2048x512_1_0_0_1_n_n.rhsIdx_val_of_single rfl i k
theorem crossRight_1 (i : S2048x512.Idx) (k : dot_S2048x256_S256x512_S2048x512_1_0_0_1_n_n.contr.Idx) :
    (dot_S2048x256_S256x512_S2048x512_1_0_0_1_n_n.rhsIdx i k 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The block's matrix product into a zero accumulator, read at `(p, q)`: row `p` of the left operand against column
    `q` of the right one. -/
theorem cross_apply (a : FVec Ideal S2048x256 .bf16) (b : FVec Ideal S256x512 .bf16) (p : Fin 2048) (q : Fin 512) :
    matmul dot_S2048x256_S256x512_S2048x512_1_0_0_1_n_n none a b (constant S2048x512 .f32 0x00000000#32) (ix2 p q)
      = ∑ f : Fin 256, a (ix2 p f) * b (ix2 f q) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 p q) ((ValueIdx.contrEquiv1 dot_S2048x256_S256x512_S2048x512_1_0_0_1_n_n 256 rfl rfl).symm k) = ix2 p k := funext fun ax => Fin.ext (by
    match ax with
    | ⟨0, _⟩ => exact crossLeft_0 _ _
    | ⟨1, _⟩ => exact (crossLeft_1 _ _).trans hk)
  have er : dot_S2048x256_S256x512_S2048x512_1_0_0_1_n_n.rhsIdx (ix2 p q) ((ValueIdx.contrEquiv1 dot_S2048x256_S256x512_S2048x512_1_0_0_1_n_n 256 rfl rfl).symm k) = ix2 k q := funext fun ax => Fin.ext (by
    match ax with
    | ⟨0, _⟩ => exact (crossRight_0 _ _).trans hk
    | ⟨1, _⟩ => exact crossRight_1 _ _)
  rw [el, er]

/-- The last scalar steps of the body around its three sums: once each sum is named, `0 − √(max(…, 0))` with the two
    zeros written as words is the specification's `−√(max(…, 0))`. -/
theorem assemble (A B C A' B' C' : EReal) (hA : A = A') (hB : B = B') (hC : C = C') :
    (Ideal.ofBits .f32 0x00000000#32 : EReal)
        - Ideal.sqrt (max ((A + B) - Ideal.ofBits .f32 0x40000000#32 * C) (Ideal.ofBits .f32 0x00000000#32))
      = -(Ideal.sqrt (max ((A' + B') - two * C') 0)) := by
  subst hA hB hC
  rw [Ideal.ofBits_zero_f32, zero_sub]

/-- THE BLOCK: what the body stores, read at `(p, q)`, is `rowPair` of row `p` of the feature block and column `q` of
    the transposed-prototype block. -/
theorem payload_apply (x0 : FVec Ideal S2048x256 .f32) (x1 : FVec Ideal S256x512 .f32) (p : Fin 2048) (q : Fin 512) :
    k0_pay1 (F := Ideal) x0 x1 (ix2 p q) = rowPair (fun f => x0 (ix2 p f)) (fun f => x1 (ix2 f q)) := by
  unfold k0_pay1 rowPair
  dsimp only
  rw [shapeCast_self]
  show (Ideal.ofBits .f32 0x00000000#32 : EReal) - Ideal.sqrt (max ((_ + _) - Ideal.ofBits .f32 0x40000000#32 * _) (Ideal.ofBits .f32 0x00000000#32)) = _
  refine assemble _ _ _ _ _ _ ?_ ?_ ?_
  · exact rowSums_apply _ _ _ _ _ _ p q
  · exact colSums_apply _ _ _ _ _ _ p q
  · exact cross_apply _ _ p q

end Cert.KernelIdeal.BlockValue

end
-- ==== Proof.KernelNegDist.lean ====
/-
  From blocks to the whole array.

  The kernel runs over a `4 × 32` grid. At point `(i, j)` it reads rows `2048·i … 2048·i + 2047` of the features
  (all 256 columns) and columns `512·j … 512·j + 511` of the transposed prototypes (all 256 rows), and writes the
  `2048 × 512` block of the result at block position `(i, j)`. The transposed prototypes are produced before the
  kernel by a plain transposition of the prototype array, so column `c` of the kernel's second operand is prototype
  row `c`.

  Hence entry `(p, q)` of the block written at `(i, j)` pairs feature row `2048·i + p` with prototype row
  `512·j + q`, which is exactly entry `(2048·i + p, 512·j + q)` of `negDist` (`flushed_eq`). Every index `(b, c)` of
  the result lies in the block at `(b / 2048, c / 512)` (`covered`), so after the run the result array is `negDist` of
  the two argument arrays (`final`, `run`).
-/
import proofs.«160110_j91087666413905_1_alg».proof.Proof.Gen.KernelIdeal.Value
import proofs.«160110_j91087666413905_1_alg».proof.Proof.BlockNegDist
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.NegDist

variable (m : (ℓ : Loc nD τ sig) → Buf (Elt Ideal) ℓ) (ρ : Dev nD → PrngReg)

/-- The offset of every load and of the store inside its staging buffer is the origin. -/
theorem origin : (![0, 0] : Fin 2 → Nat) = fun _ => 0 := funext fun a => by fin_cases a <;> rfl

/-- The kernel's second operand, as the region finds it, is the transposed prototype array. -/
theorem protoT_eq (c : Dev nD) :
    (V m c main_v0 : S256x16384.Idx → EReal)
      = transpose S256x16384 [1, 0] (m ((c : Thread nD τ).loc main_arg1)) transposes_S16384x256_S256x16384_1_0 := by
  dsimp only [Gen.V, Gen.hostOps0]; after_results

/-- Where each window's block sits at a grid point: the feature block shares the output block's row position and has
    column position zero; the transposed-prototype block has row position zero and shares the output block's column
    position. Decided over the 128 points. -/
theorem block_idx : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every block position of the `4 × 32` tiling of the result is some grid point's. -/
theorem block_onto : ∀ (q0 : Fin 4) (q1 : Fin 32), ∃ t : Fin cfg0.N, win0_2.index t = ![q0.val, q1.val] :=
  (by decide +kernel : ∀ (q0 : Fin 4) (q1 : Fin 32), ∃ t : Fin grid0.N, win0_2.index t = ![q0.val, q1.val])

/-- One block, abstractly: if row `y 0` of the feature block is row `(e y) 0` of the features and column `y 1` of the
    transposed-prototype block is prototype row `(e y) 1`, the body's value at `y` is `negDist` at `e y`. -/
theorem block_read (x0 : FVec Ideal S2048x256 .f32) (x1 : FVec Ideal S256x512 .f32)
    (feat : S8192x256.Idx → EReal) (proto : S16384x256.Idx → EReal) (e : S2048x512.Idx → S8192x16384.Idx)
    (h0 : ∀ (y : S2048x512.Idx) (f : Fin 256), x0 (ix2 (y 0) f) = feat (ix2 (e y 0) f))
    (h1 : ∀ (y : S2048x512.Idx) (f : Fin 256), x1 (ix2 f (y 1)) = proto (ix2 (e y 1) f))
    (y : S2048x512.Idx) : k0_pay1 (F := Ideal) x0 x1 y = negDist feat proto (e y) :=
  calc k0_pay1 (F := Ideal) x0 x1 y
      = k0_pay1 (F := Ideal) x0 x1 (ix2 (y 0) (y 1)) := congrArg (k0_pay1 (F := Ideal) x0 x1) (eq_ix2 y)
    _ = rowPair (fun f => x0 (ix2 (y 0) f)) (fun f => x1 (ix2 f (y 1))) := BlockValue.payload_apply x0 x1 (y 0) (y 1)
    _ = rowPair (fun f => feat (ix2 (e y 0) f)) (fun f => proto (ix2 (e y 1) f)) :=
        congrArg₂ rowPair (funext fun f => h0 y f) (funext fun f => h1 y f)
    _ = negDist feat proto (e y) := rfl

/-- WHAT POINT `t` WRITES BACK is block `t` of `negDist` of the two argument arrays. -/
theorem flushed_eq (c : Dev nD) (t : Fin cfg0.N) :
    (dats m 0 c).flushed 2 t = ((cfg0.win 2).blk t).view.read (Elt Ideal)
      (negDist (m ((c : Thread nD τ).loc main_arg0)) (m ((c : Thread nD τ).loc main_arg1))) := by
  rw [Value.flushed2]
  unfold out0_2
  rw [View.canon_unit_zero origin]
  simp only [View.ld_unit_zero (S := S2048x256) origin, View.ld_unit_zero (S := S256x512) origin]
  obtain ⟨e00, e01, e10, e11⟩ := block_idx t
  funext j
  refine block_read (iblk m c 0 t) (iblk m c 1 t) (m ((c : Thread nD τ).loc main_arg0)) (m ((c : Thread nD τ).loc main_arg1))
    (fun y => ((cfg0.win 2).blk t).view.emb y) ?_ ?_ j
  · intro y f
    show V m c main_arg0 (((cfg0.win 0).blk t).view.emb (ix2 (y 0) f)) = _
    rw [V_main_arg0]
    refine congrArg (m ((c : Thread nD τ).loc main_arg0)) (funext fun a => Fin.ext ?_)
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 256 + 1 * f.val = f.val; omega
  · intro y f
    show V m c main_v0 (((cfg0.win 1).blk t).view.emb (ix2 f (y 1))) = _
    rw [protoT_eq]
    refine transpose_apply [1, 0] _ _ _ _ (fun b => ?_)
    match b with
    | ⟨0, _⟩ => show f.val = win0_1.index t (0 : Fin 2) * 256 + 1 * f.val; omega
    | ⟨1, _⟩ => show win0_2.index t (1 : Fin 2) * 512 + 1 * (y 1).val = win0_1.index t (1 : Fin 2) * 512 + 1 * (y 1).val; omega

/-- An index of the result is in point `t`'s block iff each coordinate is in the block's range on its axis. -/
theorem mem_block (t : Fin cfg0.N) (i : S8192x16384.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v1).slice (win0_2.rect t)).set ↔ _
  rw [View.set_slice_whole, Rect.mem_set_unit]
  exact Iff.rfl

/-- Every index `(b, c)` of the result is in the block at position `(b / 2048, c / 512)`, which some point writes. -/
theorem covered (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := block_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- THE ARRAY after the run is `negDist` of the two argument arrays. -/
theorem final (c : Dev nD) :
    (dats m 0 c).arrAt 2 cfg0.N = negDist (m ((c : Thread nD τ).loc main_arg0)) (m ((c : Thread nD τ).loc main_arg1)) :=
  (dats m 0 c).arrAt_eq_of_cover 2 _ (fun t _ => flushed_eq m c t) covered

/-- The kernel's run, read: the result array ends at `negDist` of the arguments, the arguments unchanged. -/
theorem run : θ_run defs (onTc (τ := τ) (main (F := Ideal))) ⟨m, fun _ => 0, ρ⟩ fun r => ∀ c : Dev nD,
      r.2.mem ((c : Thread nD τ).loc main_v1) = negDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  Negative Euclidean distances between shifted feature rows and prototype rows: the tiled kernel against the
  whole-array reference, over the extended reals.

  Both programs compute, for feature row `b` and prototype row `c` (256 entries each, every feature entry first
  shifted by the same small constant `ε`),

      − √( max( (∑ f, y f · y f + ∑ f, p f · p f) − 2 · ∑ f, y f · p f , 0 ) ),     y = x + ε,

  that is, the squared distance in its expanded form `‖y‖² + ‖p‖² − 2⟨y, p⟩`, clamped at zero, under a square root,
  negated. They group the three sums identically and use the same constants, so no algebraic identity is needed
  beyond `0 + s = s` and `0 − s = −s`, both valid on all extended reals; the precondition that the inputs be finite is
  never used. What differs is the arrangement:
    • the kernel transposes the prototypes once, then works on a `4 × 32` grid of `2048 × 512` output blocks, each
      from a `2048 × 256` block of feature rows and a `256 × 512` block of transposed-prototype columns; its matrix
      product narrows both operands to a shorter float format first, which is the identity on extended reals;
    • the reference forms the whole `8192 × 16384` result by array operations.
  Proof/NegDistSpec.lean states the function; Proof/RefNegDist.lean shows the reference computes it;
  Proof/BlockNegDist.lean reads the kernel body's block entry by entry; Proof/KernelNegDist.lean places the blocks in
  the array. Here the five claims are assembled: the three programs run and keep their arguments, there is no
  rewriting between the kernel and its idealization to account for, and the two idealized programs end with the same
  result array.
-/
import proofs.«160110_j91087666413905_1_alg».proof.Defs
import proofs.«160110_j91087666413905_1_alg».proof.Proof.Gen.Kernel
import proofs.«160110_j91087666413905_1_alg».proof.Proof.Gen.Kernel.Skeleton
import proofs.«160110_j91087666413905_1_alg».proof.Proof.Gen.Kernel.Launch
import proofs.«160110_j91087666413905_1_alg».proof.Proof.Gen.Kernel.Points
import proofs.«160110_j91087666413905_1_alg».proof.Proof.Gen.Kernel.Frame
import proofs.«160110_j91087666413905_1_alg».proof.Proof.Gen.KernelIdeal
import proofs.«160110_j91087666413905_1_alg».proof.Proof.Gen.KernelIdeal.Skeleton
import proofs.«160110_j91087666413905_1_alg».proof.Proof.Gen.KernelIdeal.Launch
import proofs.«160110_j91087666413905_1_alg».proof.Proof.Gen.KernelIdeal.Points
import proofs.«160110_j91087666413905_1_alg».proof.Proof.Gen.KernelIdeal.Frame
import proofs.«160110_j91087666413905_1_alg».proof.Proof.Gen.ReferenceIdeal
import proofs.«160110_j91087666413905_1_alg».proof.Proof.Gen.Pre_finite_inputs
import proofs.«160110_j91087666413905_1_alg».proof.Proof.Gen.KernelIdeal.Value
import proofs.«160110_j91087666413905_1_alg».proof.Proof.Gen.ReferenceIdeal.Run
import proofs.«160110_j91087666413905_1_alg».proof.Proof.Gen.ReferenceIdeal.Read
import proofs.«160110_j91087666413905_1_alg».proof.Proof.RefNegDist
import proofs.«160110_j91087666413905_1_alg».proof.Proof.KernelNegDist
import Idealize.ShloMosaic.Adequacy
import Idealize.ShloMosaic.Init

noncomputable section

namespace Cert.Proof

open Idealize.ShloMosaic Idealize.ShloMosaic.TcCoe Idealize.SL.Sem

/-- The kernel as printed runs and keeps its two arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the features and the prototypes, the kernel's result array and the reference's are
    both `negDist` of those two arrays. -/
theorem algebraic : Cert.algebraic_KernelIdeal_ReferenceIdeal := by
  intro m ρ m' ρ' _ hagree
  refine ⟨fun c => Cert.NegDist.negDist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.stage_eq_negDist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
